-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S64x1x512x512 : Shape := ⟨4, ![64, 1, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel
  bcast_S_S64x1x512x512 : S_.BroadcastsInDim S64x1x512x512 (![] : Fin 0 → Fin S64x1x512x512.rank)
  reducesTo_S64x1x512x512_S_d0_1_2_3 : S64x1x512x512.ReducesTo [0, 1, 2, 3] S_

variable [Facts]

def fn {F : FTy → Type} [FloatOps F] (main_arg0 : FVec F S64x3x512x512 .f32) (main_arg1 : FVec F S64x1x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x3x512x512 : Shape := ⟨4, ![64, 3, 512, 512]⟩
abbrev S64x1x512x512 : Shape := ⟨4, ![64, 1, 512, 512]⟩
abbrev S1x3x512x512 : Shape := ⟨4, ![1, 3, 512, 512]⟩
abbrev S1x1x512x512 : Shape := ⟨4, ![1, 1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S64x3x512x512, .f32⟩
  | .hbm, ⟨1, _⟩ => ⟨S64x1x512x512, .f32⟩
  | .hbm, ⟨2, _⟩ => ⟨S64x3x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x3x512x512, .f32⟩
  | .local _ .vmem, ⟨5, _⟩ => ⟨S1x3x512x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1x512x512_S1x1x512x512_0_0_0_0 : ∀ a, (![0, 0, 0, 0] : Fin 4 → Nat) a + S1x1x512x512.size a ≤ S1x1x512x512.size a
  h_S1x1x512x512 : 0 < S1x1x512x512.numel
  inb_S1x3x512x512_S1x3x512x512_0_0_0_0 : ∀ a, (![0, 0, 0, 0] : Fin 4 → Nat) a + S1x3x512x512.size a ≤ S1x3x512x512.size a
  h_S1x3x512x512 : 0 < S1x3x512x512.numel
  broadcasts_S1x1x512x512_S1x3x512x512 : S1x1x512x512.Broadcasts S1x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S64x3x512x512.size a
  hwx0_0 : ∀ i : grid0.Coords, EltTy.bits .f32 = 32 ∨ (Rect.block (s := S64x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S64x1x512x512.size a
  hwx0_1 : ∀ i : grid0.Coords, EltTy.bits .f32 = 32 ∨ (Rect.block (s := S64x1x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x512x512.size a ≤ S64x3x512x512.size a
  hwx0_2 : ∀ i : grid0.Coords, EltTy.bits .f32 = 32 ∨ (Rect.block (s := S64x3x512x512) S1x3x512x512.size (cc0_transform_2 i) (hinb0_2 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x3x512x512 : Shape := ⟨4, ![64, 3, 512, 512]⟩
abbrev S64x1x512x512 : Shape := ⟨4, ![64, 1, 512, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x1x512x512, .f32⟩
  | .hbm, ⟨2, _⟩ => ⟨S_, .f32⟩
  | .hbm, ⟨3, _⟩ => ⟨S64x1x512x512, .f32⟩
  | .hbm, ⟨4, _⟩ => ⟨S64x1x512x512, .f32⟩
  | .hbm, ⟨5, _⟩ => ⟨S64x3x512x512, .f32⟩
  | .hbm, ⟨6, _⟩ => ⟨S64x3x512x512, .f32⟩
  | .hbm, ⟨7, _⟩ => ⟨S_, .f32⟩
  | .hbm, ⟨8, _⟩ => ⟨S64x1x512x512, .f32⟩
  | .hbm, ⟨9, _⟩ => ⟨S64x1x512x512, .f32⟩
  | .hbm, ⟨10, _⟩ => ⟨S64x3x512x512, .f32⟩
  | .hbm, ⟨11, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S64x1x512x512 : S_.BroadcastsInDim S64x1x512x512 (![] : Fin 0 → Fin S64x1x512x512.rank)
  bcast_S64x1x512x512_S64x3x512x512_0_1_2_3 : S64x1x512x512.BroadcastsInDim S64x3x512x512 (![0, 1, 2, 3] : Fin 4 → Fin S64x3x512x512.rank)

variable [Facts₀]

class Facts : Prop extends Facts₀ where

variable [Facts]
-- ==== Proof.Blend.lean ====
/-
  The masked blend as ONE function of the two argument arrays.

  An image batch `x` (64 images, 3 channels, 512 by 512 pixels) is blended with a mask batch `mk` that has a single
  channel per image: the entry at (image b, channel ch, row r, column q) is

      x[b, ch, r, q] * (1 - mk[b, 0, r, q]) + mk[b, 0, r, q] * 0 .

  The mask entry does not depend on the channel: every channel of a pixel is blended with the same mask value. The
  formula is kept exactly as both programs spell it (the product with the literal zero is not simplified away), so no
  law of arithmetic is used anywhere: the two programs are compared operation by operation. It is stated at any float
  instance, the two literals by their words.
-/
import Idealize.ShloMosaic.Lib.ValueIdx

noncomputable section

namespace Cert.Blend

open Idealize.ShloMosaic Idealize.ShloMosaic.ValueIdx

variable {F : FTy → Type} [FloatOps F]

/-- The image batch's shape. -/
abbrev ImgShape : Shape := ⟨4, ![64, 3, 512, 512]⟩
/-- The mask batch's shape: one channel per image. -/
abbrev MaskShape : Shape := ⟨4, ![64, 1, 512, 512]⟩

/-- The mask entry an image entry is blended with: the same image and pixel, on the mask's only channel. -/
abbrev maskIdx (i : ImgShape.Idx) : MaskShape.Idx := ix4 (i 0) (0 : Fin 1) (i 2) (i 3)

/-- One entry of the blend from the image value `a` and the mask value `w`: `a * (1 - w) + w * 0`. -/
def blend1 (a w : F .f32) : F .f32 :=
  FloatOps.addf (FloatOps.mulf a (FloatOps.subf (FloatOps.ofBits .f32 0x3F800000#32) w))
    (FloatOps.mulf w (FloatOps.ofBits .f32 0x00000000#32))

/-- The blended batch: entry `i` from the image's entry `i` and the mask's entry at `maskIdx i`. -/
def blend (x : ImgShape.Idx → F .f32) (mk : MaskShape.Idx → F .f32) : ImgShape.Idx → F .f32 :=
  fun i => blend1 (x i) (mk (maskIdx i))

end Cert.Blend

end
-- ==== Proof.BlendRef.lean ====
/-
  The reference program's result is the masked blend.

  The reference forms `1 - mask` on the mask's own shape, repeats it over the three channels, multiplies by the image,
  and adds the product `mask * 0`, likewise repeated over the channels. Repeating a one-channel array over the channel
  axis reads, at image entry (b, ch, r, q), the one-channel array at (b, 0, r, q): the mask entry the blend's
  specification names. So entry by entry the reference's composed term IS the specification, with no arithmetic law
  used; only the two index functions (one per repetition over the channels) are identified with the specification's.
-/
import proofs.«104748_j72567767433410_1_alg».proof.Proof.Gen.ReferenceIdeal.Read
import proofs.«104748_j72567767433410_1_alg».proof.Proof.Blend

noncomputable section

namespace Cert.ReferenceIdeal.RefValue

open Cert.ReferenceIdeal Cert.ReferenceIdeal.Gen Cert.ReferenceIdeal.Read
open Idealize.ShloMosaic Idealize.ShloMosaic.ValueIdx Cert.Blend

variable {F : FTy → Type} [FloatOps F]

/-- Where the first repetition over the channels (of `1 - mask`) reads the one-channel array. -/
theorem idx_one_minus (i : S64x3x512x512.Idx) : idx_main_v2 i = maskIdx i :=
  funext fun a => Fin.ext (by match a with | ⟨0, _⟩ => rfl | ⟨1, _⟩ => rfl | ⟨2, _⟩ => rfl | ⟨3, _⟩ => rfl)

/-- Where the second repetition over the channels (of `mask * 0`) reads the one-channel array. -/
theorem idx_times_zero (i : S64x3x512x512.Idx) : idx_main_v6 i = maskIdx i :=
  funext fun a => Fin.ext (by match a with | ⟨0, _⟩ => rfl | ⟨1, _⟩ => rfl | ⟨2, _⟩ => rfl | ⟨3, _⟩ => rfl)

/-- The reference's last stage, as a function of the image and mask arrays, is the blend. -/
theorem stage_eq_blend (x : S64x3x512x512.Idx → F .f32) (mk : S64x1x512x512.Idx → F .f32) :
    val_main_v7 (F := F) x mk = blend x mk := by
  funext i
  rw [val_main_v7_apply, val_main_v3_apply, val_main_v2_apply, val_main_v1_apply, val_main_v0_apply, val_main_cst_apply,
    val_main_v6_apply, val_main_v5_apply, val_main_v4_apply, val_main_cst_0_apply, idx_one_minus, idx_times_zero]
  rfl

/-- The term the reference's run ends at is the blend of the arguments. -/
theorem run_term_eq_blend (x : S64x3x512x512.Idx → F .f32) (mk : S64x1x512x512.Idx → F .f32) :
    addf (mulf x (broadcastInDim S64x3x512x512 ![0, 1, 2, 3] bcast_S64x1x512x512_S64x3x512x512_0_1_2_3
        (subf (broadcastInDim S64x1x512x512 ![] bcast_S_S64x1x512x512 (constant S_ .f32 0x3F800000#32)) mk)))
      (broadcastInDim S64x3x512x512 ![0, 1, 2, 3] bcast_S64x1x512x512_S64x3x512x512_0_1_2_3
        (mulf mk (broadcastInDim S64x1x512x512 ![] bcast_S_S64x1x512x512 (constant S_ .f32 0x00000000#32))))
      = blend x mk :=
  (val_main_v7_eq (F := F) x mk).trans (stage_eq_blend x mk)

end Cert.ReferenceIdeal.RefValue

end
-- ==== Proof.BlendValue.lean ====
/-
  The kernel's result array is the masked blend.

  The kernel walks the batch one image at a time: at grid point `t` it stages image `t` (all 3 channels) and mask `t` (its
  one channel), and writes back image `t` of the result. Inside the body the mask block is repeated over the 3 channels
  before it meets the image block, so result entry (ch, r, q) of image `t` is made from image entry (ch, r, q) and mask
  entry (0, r, q): one entry of the blend's specification. Three facts turn that into a statement about the whole array:
    * all three index maps send point `t` to block (t, 0, 0, 0), so inside a block the array coordinate is the block
      coordinate, shifted by `t` on the batch axis only;
    * hence what point `t` writes back is block `t` of the blend of the two whole argument arrays;
    * the 64 blocks cover the result array (entry (b, ch, r, q) lies in block `b`), so the array ends as the blend.
-/
import proofs.«104748_j72567767433410_1_alg».proof.Proof.Gen.KernelIdeal.Value
import proofs.«104748_j72567767433410_1_alg».proof.Proof.Blend

noncomputable section

namespace Cert.KernelIdeal.BlendValue

open Cert.KernelIdeal Cert.KernelIdeal.Gen Cert.KernelIdeal.Value
open Idealize.ShloMosaic Idealize.ShloMosaic.TcCoe Idealize.SL.Sem Idealize.ShloMosaic.ValueIdx Cert.Blend
open Idealize.ShloMosaic.Pipeline (Dat)

variable {F : FTy → Type} [FloatOps F]
variable (m : (ℓ : Loc nD τ sig) → Buf (Elt F) ℓ) (ρ : Dev nD → PrngReg)

/-- The body's loads and its store start at the block's origin. -/
theorem origin : (![0, 0, 0, 0] : Fin 4 → Nat) = fun _ => 0 := funext fun a => by fin_cases a <;> rfl

/-- The mask block's entry that meets image-block entry `j`: the same pixel, on the mask's one channel. -/
abbrev pixel (j : S1x3x512x512.Idx) : S1x1x512x512.Idx := fun a => match a with
  | ⟨0, _⟩ => ⟨0, Nat.one_pos⟩
  | ⟨1, _⟩ => ⟨0, Nat.one_pos⟩
  | ⟨2, _⟩ => ⟨(j 2).val, (j 2).isLt⟩
  | ⟨3, _⟩ => ⟨(j 3).val, (j 3).isLt⟩

/-- THE BODY, ENTRY BY ENTRY: from an image block `P0` and a mask block `P1` the stored block's entry `j` is one entry
    of the blend, of the image block's entry `j` and the mask block's entry at the same pixel. -/
theorem body_apply (P0 : Vec F S1x3x512x512 .f32) (P1 : Vec F S1x1x512x512 .f32) (j : S1x3x512x512.Idx) :
    k0_pay1 P1 P0 j = blend1 (P0 j) (P1 (pixel j)) := by
  have hj0 : (j 0).val < 1 := (j 0).isLt
  refine (piece2_0 P0 P1 j).trans ?_
  have h0 : ix2_0 (r0_1.idx j) = j := by
    funext a; apply Fin.ext
    match a with
    | ⟨0, _⟩ => show 0 = (j 0).val; omega
    | ⟨1, _⟩ => show (0 + 1 * (j 1).val) = (j 1).val; omega
    | ⟨2, _⟩ => show (0 + 1 * (j 2).val) = (j 2).val; omega
    | ⟨3, _⟩ => show (0 + 1 * (j 3).val) = (j 3).val; omega
  have h1 : ix2_1 (r0_1.idx j) = pixel j := by
    funext a; apply Fin.ext
    match a with
    | ⟨0, _⟩ => rfl
    | ⟨1, _⟩ => rfl
    | ⟨2, _⟩ => show (0 + 1 * (j 2).val) = (j 2).val; omega
    | ⟨3, _⟩ => show (0 + 1 * (j 3).val) = (j 3).val; omega
  have h2 : ix2_2 (r0_1.idx j) = pixel j := by
    funext a; apply Fin.ext
    match a with
    | ⟨0, _⟩ => rfl
    | ⟨1, _⟩ => rfl
    | ⟨2, _⟩ => show (0 + 1 * (j 2).val) = (j 2).val; omega
    | ⟨3, _⟩ => show (0 + 1 * (j 3).val) = (j 3).val; omega
  show FloatOps.addf (FloatOps.mulf (P0 (ix2_0 (r0_1.idx j))) (FloatOps.subf (Scalar.ofBits .f32 0x3F800000#32) (P1 (ix2_1 (r0_1.idx j)))))
      (FloatOps.mulf (P1 (ix2_2 (r0_1.idx j))) (Scalar.ofBits .f32 0x00000000#32)) = _
  rw [h0, h1, h2]
  rfl

/-- The three index maps over the 64 grid points: image, mask and result all take point `t` to the block whose batch
    coordinate is the same and whose other coordinates are 0; the batch coordinate stays below 64. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (1 : Fin 4) = 0 ∧ win0_2.index t (2 : Fin 4) = 0 ∧ win0_2.index t (3 : Fin 4) = 0
    ∧ win0_2.index t (0 : Fin 4) ≤ 63 :=
  (by decide +kernel : ∀ t : Fin grid0.N, _)

/-- Every image of the batch is some grid point's result block. -/
theorem idx_onto : ∀ b : Fin 64, ∃ t : Fin cfg0.N, win0_2.index t = ![b.val, 0, 0, 0] :=
  (by decide +kernel : ∀ b : Fin 64, ∃ t : Fin grid0.N, win0_2.index t = ![b.val, 0, 0, 0])

/-- WHAT POINT `t` WRITES BACK is block `t` of the blend of the two argument arrays as the region finds them. -/
theorem flushed_eq (c : Dev nD) (t : Fin cfg0.N) :
    (dats m 0 c).flushed 2 t
      = ((cfg0.win 2).blk t).view.read (Elt F) (blend (V m c main_arg0) (V m c main_arg1)) := by
  show (cfg0.win 2).cut (grid0.coords t) ((dats m 0 c).after 2 t) = _
  rw [after0_2]
  unfold out0_2
  rw [View.canon_unit_zero origin]
  simp only [View.ld_unit_zero (S := S1x3x512x512) origin, View.ld_unit_zero (S := S1x1x512x512) origin]
  obtain ⟨e00, e01, e02, e03, e10, e11, e12, e13, e21, e22, e23, -⟩ := idx_facts t
  funext j
  have hj0 : (j 0).val < 1 := (j 0).isLt
  have hj1 : (j 1).val < 3 := (j 1).isLt
  have hj2 : (j 2).val < 512 := (j 2).isLt
  have hj3 : (j 3).val < 512 := (j 3).isLt
  show k0_pay1 (iblk m c 1 t) (iblk m c 0 t) j
      = blend1 (V m c main_arg0 (((cfg0.win 2).blk t).view.emb j)) (V m c main_arg1 (maskIdx (((cfg0.win 2).blk t).view.emb j)))
  refine (body_apply (iblk m c 0 t) (iblk m c 1 t) j).trans ?_
  show blend1 (V m c main_arg0 (((cfg0.win 0).blk t).view.emb j)) (V m c main_arg1 (((cfg0.win 1).blk t).view.emb (pixel j)))
      = blend1 (V m c main_arg0 (((cfg0.win 2).blk t).view.emb j)) (V m c main_arg1 (maskIdx (((cfg0.win 2).blk t).view.emb j)))
  have h0 : ((cfg0.win 0).blk t).view.emb j = ((cfg0.win 2).blk t).view.emb j := by
    funext a; apply Fin.ext
    match a with
    | ⟨0, _⟩ => show win0_0.index t (0 : Fin 4) * 1 + 1 * (j 0).val = win0_2.index t (0 : Fin 4) * 1 + 1 * (j 0).val; omega
    | ⟨1, _⟩ => show win0_0.index t (1 : Fin 4) * 3 + 1 * (j 1).val = win0_2.index t (1 : Fin 4) * 3 + 1 * (j 1).val; omega
    | ⟨2, _⟩ => show win0_0.index t (2 : Fin 4) * 512 + 1 * (j 2).val = win0_2.index t (2 : Fin 4) * 512 + 1 * (j 2).val; omega
    | ⟨3, _⟩ => show win0_0.index t (3 : Fin 4) * 512 + 1 * (j 3).val = win0_2.index t (3 : Fin 4) * 512 + 1 * (j 3).val; omega
  have h1 : ((cfg0.win 1).blk t).view.emb (pixel j) = maskIdx (((cfg0.win 2).blk t).view.emb j) := by
    funext a; apply Fin.ext
    match a with
    | ⟨0, _⟩ => show win0_1.index t (0 : Fin 4) * 1 + 1 * 0 = win0_2.index t (0 : Fin 4) * 1 + 1 * (j 0).val; omega
    | ⟨1, _⟩ => show win0_1.index t (1 : Fin 4) * 1 + 1 * 0 = 0; omega
    | ⟨2, _⟩ => show win0_1.index t (2 : Fin 4) * 512 + 1 * (j 2).val = win0_2.index t (2 : Fin 4) * 512 + 1 * (j 2).val; omega
    | ⟨3, _⟩ => show win0_1.index t (3 : Fin 4) * 512 + 1 * (j 3).val = win0_2.index t (3 : Fin 4) * 512 + 1 * (j 3).val; omega
  rw [h0, h1]

/-- An entry of the result array is in point `t`'s block iff each coordinate is in the block's range on its axis. -/
theorem mem_blk (t : Fin cfg0.N) (i : S64x3x512x512.Idx) :
    i ∈ ((cfg0.win 2).blk t).view.set ↔ ∀ a : Fin 4, win0_2.index t a * S1x3x512x512.size a ≤ (i a).val
      ∧ (i a).val < win0_2.index t a * S1x3x512x512.size a + S1x3x512x512.size a := by
  show i ∈ ((View.whole main_v0).slice (win0_2.rect t)).set ↔ _
  rw [View.set_slice_whole, Rect.mem_set_unit]
  exact Iff.rfl

/-- THE BLOCKS COVER THE ARRAY: entry (b, ch, r, q) lies in the block of the point that handles image `b`. -/
theorem cover (i : S64x3x512x512.Idx) :
    ∃ t : Fin cfg0.N, (cfg0.win 2).flush t = true ∧ i ∈ ((cfg0.win 2).blk t).view.set := by
  have hi0 : (i 0).val < 64 := (i 0).isLt
  have hi1 : (i 1).val < 3 := (i 1).isLt
  have hi2 : (i 2).val < 512 := (i 2).isLt
  have hi3 : (i 3).val < 512 := (i 3).isLt
  obtain ⟨t, ht⟩ := idx_onto ⟨(i 0).val, hi0⟩
  have q0 : win0_2.index t (0 : Fin 4) = (i 0).val := congrFun ht 0
  have q1 : win0_2.index t (1 : Fin 4) = 0 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- THE RESULT ARRAY after the run is the blend of the two argument arrays as launched. -/
theorem final (c : Dev nD) :
    (dats m 0 c).arrAt 2 cfg0.N
      = blend (m ((c : Thread nD τ).loc main_arg0)) (m ((c : Thread nD τ).loc main_arg1)) :=
  (dats m 0 c).arrAt_eq_of_cover 2 (blend (V m c main_arg0) (V m c main_arg1)) (fun t _ => flushed_eq m c t) cover

/-- The kernel's run re-posted: the result array at the blend of the arguments, the arguments unchanged. -/
theorem run : θ_run defs (onTc (τ := τ) (main (F := F))) ⟨m, fun _ => 0, ρ⟩ fun r => ∀ c : Dev nD,
      r.2.mem ((c : Thread nD τ).loc main_v0)
        = blend (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.BlendValue

end
-- ==== Proof.lean ====
/-
  A batch of 64 three-channel 512 by 512 images is blended with a batch of one-channel masks,

      out[b, ch, r, q] = x[b, ch, r, q] * (1 - mask[b, 0, r, q]) + mask[b, 0, r, q] * 0 ,

  once by a kernel that handles one image per grid point and once by a reference that works on the whole arrays.

  Both programs apply the SAME operations in the SAME order to the same two literals (the words of 1 and of 0); they
  differ only in where the mask is repeated over the channels: per image block in the kernel, on the whole array in the
  reference. So over the extended reals the two results agree entry by entry with no law of arithmetic used, and the
  finiteness of the inputs is never needed: the product with the literal 0 is kept on both sides as it is written.

    * Proof/Blend.lean       the blend as one function of the two arrays, entry by entry;
    * Proof/BlendRef.lean    the reference's composed term is that function;
    * Proof/BlendValue.lean  the kernel's result array is that function: the body entry by entry, what a grid point
                             writes back as a block of it, and the 64 blocks covering the array.

  The three runs (each program terminates, faults nowhere and leaves its arguments as they were) are the generated frames
  of the two kernels and the generated run of the reference. The idealized kernel is the kernel's own text read over the
  extended reals (no operation was rewritten), so that conjunct holds trivially.
-/
import proofs.«104748_j72567767433410_1_alg».proof.Defs
import proofs.«104748_j72567767433410_1_alg».proof.Proof.Gen.Kernel
import proofs.«104748_j72567767433410_1_alg».proof.Proof.Gen.Kernel.Skeleton
import proofs.«104748_j72567767433410_1_alg».proof.Proof.Gen.Kernel.Launch
import proofs.«104748_j72567767433410_1_alg».proof.Proof.Gen.Kernel.Points
import proofs.«104748_j72567767433410_1_alg».proof.Proof.Gen.Kernel.Frame
import proofs.«104748_j72567767433410_1_alg».proof.Proof.Gen.KernelIdeal
import proofs.«104748_j72567767433410_1_alg».proof.Proof.Gen.KernelIdeal.Skeleton
import proofs.«104748_j72567767433410_1_alg».proof.Proof.Gen.KernelIdeal.Launch
import proofs.«104748_j72567767433410_1_alg».proof.Proof.Gen.KernelIdeal.Points
import proofs.«104748_j72567767433410_1_alg».proof.Proof.Gen.KernelIdeal.Frame
import proofs.«104748_j72567767433410_1_alg».proof.Proof.Gen.ReferenceIdeal
import proofs.«104748_j72567767433410_1_alg».proof.Proof.Gen.Pre_finite_inputs
import proofs.«104748_j72567767433410_1_alg».proof.Proof.Gen.KernelIdeal.Value
import proofs.«104748_j72567767433410_1_alg».proof.Proof.Gen.ReferenceIdeal.Run
import proofs.«104748_j72567767433410_1_alg».proof.Proof.Gen.ReferenceIdeal.Read
import proofs.«104748_j72567767433410_1_alg».proof.Proof.Blend
import proofs.«104748_j72567767433410_1_alg».proof.Proof.BlendRef
import proofs.«104748_j72567767433410_1_alg».proof.Proof.BlendValue
import Idealize.ShloMosaic.Adequacy
import Idealize.ShloMosaic.Init

noncomputable section

namespace Cert.Proof

open Idealize.ShloMosaic Idealize.ShloMosaic.TcCoe Idealize.SL.Sem

/-- The word-level kernel runs and leaves both arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the image and mask arrays, the kernel's result array and the reference's result both
    end at the blend of those arrays: the same function, entry by entry. -/
theorem algebraic : Cert.algebraic_KernelIdeal_ReferenceIdeal := by
  intro m ρ m' ρ' _ hagree
  refine ⟨_, Cert.KernelIdeal.BlendValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.run_term_eq_blend _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
